-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x16384 : Shape := ⟨2, ![128, 16384]⟩
abbrev S524288 : Shape := ⟨1, ![524288]⟩
abbrev S_ : Shape := ⟨0, ![]⟩

class Facts : Prop where
  bcast_S_S128x16384 : S_.BroadcastsInDim S128x16384 (![] : Fin 0 → Fin S128x16384.rank)
  reducesTo_S128x16384_S_d0_1 : S128x16384.ReducesTo [0, 1] S_
  h_S_ : 0 < S_.numel
  bcast_S_S524288 : S_.BroadcastsInDim S524288 (![] : Fin 0 → Fin S524288.rank)
  reducesTo_S524288_S_d0 : S524288.ReducesTo [0] S_

variable [Facts]

def fn_part1 {F : FTy → Type} [FloatOps F] (main_arg3 : IVec S524288 32) (main_v12 : IVec S_ 1) (main_v15 : IVec S_ 1) : IVec S_ 1 :=
  let main_v16 : IVec S_ 1 := andi main_v12 main_v15
  let main_c_6 : IVec S_ 32 := constantI S_ 32 0#32
  let main_v17 : IVec S524288 32 := broadcastInDim S524288 ![] bcast_S_S524288 main_c_6
  let main_v18 : IVec S524288 1 := cmpi .sge main_arg3 main_v17
  let main_c_7 : IVec S_ 1 := constantI S_ 1 1#1
  let main_v19 : IVec S_ 1 := (fun x v => Host.reduce IntOp.andi x v reducesTo_S524288_S_d0 h_S_) main_v18 main_c_7
  let main_v20 : IVec S_ 1 := andi main_v16 main_v19
  let main_c_8 : IVec S_ 32 := constantI S_ 32 16384#32
  let main_v21 : IVec S524288 32 := broadcastInDim S524288 ![] bcast_S_S524288 main_c_8
  let main_v22 : IVec S524288 1 := cmpi .slt main_arg3 main_v21
  let main_c_9 : IVec S_ 1 := constantI S_ 1 1#1
  let main_v23 : IVec S_ 1 := (fun x v => Host.reduce IntOp.andi x v reducesTo_S524288_S_d0 h_S_) main_v22 main_c_9
  let main_v24 : IVec S_ 1 := andi main_v20 main_v23
  main_v24

def fn {F : FTy → Type} [FloatOps F] (main_arg0 : FVec F S128x16384 .f32) (main_arg1 : FVec F S524288 .f32) (main_arg2 : IVec S524288 32) (main_arg3 : IVec S524288 32) : IVec S_ 1 :=
  let main_v0 : FVec F S128x16384 .f32 := Host.absf main_arg0
  let main_cst : FVec F S_ .f32 := constant S_ .f32 0x7F800000#32
  let main_v1 : FVec F S128x16384 .f32 := broadcastInDim S128x16384 ![] bcast_S_S128x16384 main_cst
  let main_v2 : IVec S128x16384 1 := cmpf .olt main_v0 main_v1
  let main_c : IVec S_ 1 := constantI S_ 1 1#1
  let main_v3 : IVec S_ 1 := (fun x v => Host.reduce IntOp.andi x v reducesTo_S128x16384_S_d0_1 h_S_) main_v2 main_c
  let main_v4 : FVec F S524288 .f32 := Host.absf main_arg1
  let main_cst_0 : FVec F S_ .f32 := constant S_ .f32 0x7F800000#32
  let main_v5 : FVec F S524288 .f32 := broadcastInDim S524288 ![] bcast_S_S524288 main_cst_0
  let main_v6 : IVec S524288 1 := cmpf .olt main_v4 main_v5
  let main_c_1 : IVec S_ 1 := constantI S_ 1 1#1
  let main_v7 : IVec S_ 1 := (fun x v => Host.reduce IntOp.andi x v reducesTo_S524288_S_d0 h_S_) main_v6 main_c_1
  let main_v8 : IVec S_ 1 := andi main_v3 main_v7
  let main_c_2 : IVec S_ 32 := constantI S_ 32 0#32
  let main_v9 : IVec S524288 32 := broadcastInDim S524288 ![] bcast_S_S524288 main_c_2
  let main_v10 : IVec S524288 1 := cmpi .sge main_arg2 main_v9
  let main_c_3 : IVec S_ 1 := constantI S_ 1 1#1
  let main_v11 : IVec S_ 1 := (fun x v => Host.reduce IntOp.andi x v reducesTo_S524288_S_d0 h_S_) main_v10 main_c_3
  let main_v12 : IVec S_ 1 := andi main_v8 main_v11
  let main_c_4 : IVec S_ 32 := constantI S_ 32 8192#32
  let main_v13 : IVec S524288 32 := broadcastInDim S524288 ![] bcast_S_S524288 main_c_4
  let main_v14 : IVec S524288 1 := cmpi .slt main_arg2 main_v13
  let main_c_5 : IVec S_ 1 := constantI S_ 1 1#1
  let main_v15 : IVec S_ 1 := (fun x v => Host.reduce IntOp.andi x v reducesTo_S524288_S_d0 h_S_) main_v14 main_c_5
  fn_part1 (F := F) main_arg3 main_v12 main_v15
-- ==== Kernel.lean ====
abbrev S128x16384 : Shape := ⟨2, ![128, 16384]⟩
abbrev S524288 : Shape := ⟨1, ![524288]⟩
abbrev S_ : Shape := ⟨0, ![]⟩
abbrev S16384x8192 : Shape := ⟨2, ![16384, 8192]⟩
abbrev S524288x1 : Shape := ⟨2, ![524288, 1]⟩
abbrev S524288x2 : Shape := ⟨2, ![524288, 2]⟩
abbrev S128x8192 : Shape := ⟨2, ![128, 8192]⟩
abbrev S128x2048 : Shape := ⟨2, ![128, 2048]⟩
abbrev S2048x2048 : Shape := ⟨2, ![2048, 2048]⟩

abbrev nBuf : Space → Nat
  | .hbm => 27
  | .vmem => 7
  | .smem => 0
  | _ => 0

abbrev bufTy : (tb : Table) → Fin (tcTables nBuf tb) → BufTy
  | .hbm, ⟨0, _⟩ => ⟨S128x16384, .f32⟩
  | .hbm, ⟨1, _⟩ => ⟨S524288, .f32⟩
  | .hbm, ⟨2, _⟩ => ⟨S524288, .i32⟩
  | .hbm, ⟨3, _⟩ => ⟨S524288, .i32⟩
  | .hbm, ⟨4, _⟩ => ⟨S_, .f32⟩
  | .hbm, ⟨5, _⟩ => ⟨S16384x8192, .f32⟩
  | .hbm, ⟨6, _⟩ => ⟨S_, .i32⟩
  | .hbm, ⟨7, _⟩ => ⟨S524288, .i32⟩
  | .hbm, ⟨8, _⟩ => ⟨S524288, .i1⟩
  | .hbm, ⟨9, _⟩ => ⟨S_, .i32⟩
  | .hbm, ⟨10, _⟩ => ⟨S524288, .i32⟩
  | .hbm, ⟨11, _⟩ => ⟨S524288, .i32⟩
  | .hbm, ⟨12, _⟩ => ⟨S524288, .i32⟩
  | .hbm, ⟨13, _⟩ => ⟨S_, .i32⟩
  | .hbm, ⟨14, _⟩ => ⟨S524288, .i32⟩
  | .hbm, ⟨15, _⟩ => ⟨S524288, .i1⟩
  | .hbm, ⟨16, _⟩ => ⟨S_, .i32⟩
  | .hbm, ⟨17, _⟩ => ⟨S524288, .i32⟩
  | .hbm, ⟨18, _⟩ => ⟨S524288, .i32⟩
  | .hbm, ⟨19, _⟩ => ⟨S524288, .i32⟩
  | .hbm, ⟨20, _⟩ => ⟨S524288x1, .i32⟩
  | .hbm, ⟨21, _⟩ => ⟨S524288x1, .i32⟩
  | .hbm, ⟨22, _⟩ => ⟨S524288x2, .i32⟩
  | .hbm, ⟨23, _⟩ => ⟨S16384x8192, .f32⟩
  | .hbm, ⟨24, _⟩ => ⟨S16384x8192, .bf16⟩
  | .hbm, ⟨25, _⟩ => ⟨S128x16384, .bf16⟩
  | .hbm, ⟨26, _⟩ => ⟨S128x8192, .f32⟩
  | .local _ .vmem, ⟨0, _⟩ => ⟨S128x2048, .bf16⟩
  | .local _ .vmem, ⟨1, _⟩ => ⟨S128x2048, .bf16⟩
  | .local _ .vmem, ⟨2, _⟩ => ⟨S2048x2048, .bf16⟩
  | .local _ .vmem, ⟨3, _⟩ => ⟨S2048x2048, .bf16⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | _, _ => ⟨S128x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S16384x8192 : S_.BroadcastsInDim S16384x8192 (![] : Fin 0 → Fin S16384x8192.rank)
  bcast_S_S524288 : S_.BroadcastsInDim S524288 (![] : Fin 0 → Fin S524288.rank)
  bcast_S524288_S524288x1_0 : S524288.BroadcastsInDim S524288x1 (![0] : Fin 1 → Fin S524288x1.rank)
  concatenates_S524288x1_S524288x1_S524288x2_d1 : Shape.Concatenates [S524288x1, S524288x1] S524288x2 1
  bitsLt_bf16_f32 : FTy.bits .bf16 < FTy.bits .f32
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  scatter_S16384x8192_S524288x2_S524288_n_01_01_1_wf : ScatterDims.WF S16384x8192 S524288x2 S524288 [] [0, 1] [0, 1] 1
  dot_S128x2048_S2048x2048_S128x2048_1_0_0_1_n_n_wf : DotDims.WF S128x2048 S2048x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S128x16384.size a
  hwx0_0 : ∀ i : grid0.Coords, EltTy.bits .bf16 = 32 ∨ (Rect.block (s := S128x16384) S128x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S16384x8192.size a
  hwx0_1 : ∀ i : grid0.Coords, EltTy.bits .bf16 = 32 ∨ (Rect.block (s := S16384x8192) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S128x8192.size a
  hwx0_2 : ∀ i : grid0.Coords, EltTy.bits .f32 = 32 ∨ (Rect.block (s := S128x8192) S128x2048.size (cc0_transform_2 i) (hinb0_2 i)).WholeWords (EltTy.packing .f32)

variable [Facts₀]

def scatter_S16384x8192_S524288x2_S524288_n_01_01_1 : ScatterDims S16384x8192 S524288x2 S524288 where
  updateWindowDims := []
  insertedWindowDims := [0, 1]
  scatterDimsToOperandDims := [0, 1]
  indexVectorDim := 1
  wf := scatter_S16384x8192_S524288x2_S524288_n_01_01_1_wf
def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf

abbrev win0_0 : Pipeline.Window sig grid0 :=
  Pipeline.Window.ofSpec (Memref.whole main_v16) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S128x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S128x16384 : Shape := ⟨2, ![128, 16384]⟩
abbrev S524288 : Shape := ⟨1, ![524288]⟩
abbrev S_ : Shape := ⟨0, ![]⟩
abbrev S524288x1 : Shape := ⟨2, ![524288, 1]⟩
abbrev S128x524288 : Shape := ⟨2, ![128, 524288]⟩
abbrev S1x524288 : Shape := ⟨2, ![1, 524288]⟩
abbrev S524288x128 : Shape := ⟨2, ![524288, 128]⟩
abbrev S8192x128 : Shape := ⟨2, ![8192, 128]⟩
abbrev S128x8192 : Shape := ⟨2, ![128, 8192]⟩

abbrev nBuf : Space → Nat
  | .hbm => 22
  | .vmem => 0
  | .smem => 0
  | _ => 0

abbrev bufTy : (tb : Table) → Fin (tcTables nBuf tb) → BufTy
  | .hbm, ⟨0, _⟩ => ⟨S128x16384, .f32⟩
  | .hbm, ⟨1, _⟩ => ⟨S524288, .f32⟩
  | .hbm, ⟨2, _⟩ => ⟨S524288, .i32⟩
  | .hbm, ⟨3, _⟩ => ⟨S524288, .i32⟩
  | .hbm, ⟨4, _⟩ => ⟨S_, .i32⟩
  | .hbm, ⟨5, _⟩ => ⟨S524288, .i32⟩
  | .hbm, ⟨6, _⟩ => ⟨S524288, .i1⟩
  | .hbm, ⟨7, _⟩ => ⟨S_, .i32⟩
  | .hbm, ⟨8, _⟩ => ⟨S524288, .i32⟩
  | .hbm, ⟨9, _⟩ => ⟨S524288, .i32⟩
  | .hbm, ⟨10, _⟩ => ⟨S524288, .i32⟩
  | .hbm, ⟨11, _⟩ => ⟨S524288x1, .i32⟩
  | .hbm, ⟨12, _⟩ => ⟨S128x524288, .f32⟩
  | .hbm, ⟨13, _⟩ => ⟨S1x524288, .f32⟩
  | .hbm, ⟨14, _⟩ => ⟨S128x524288, .f32⟩
  | .hbm, ⟨15, _⟩ => ⟨S128x524288, .f32⟩
  | .hbm, ⟨16, _⟩ => ⟨S524288x128, .f32⟩
  | .hbm, ⟨17, _⟩ => ⟨S_, .f32⟩
  | .hbm, ⟨18, _⟩ => ⟨S8192x128, .f32⟩
  | .hbm, ⟨19, _⟩ => ⟨S524288x1, .i32⟩
  | .hbm, ⟨20, _⟩ => ⟨S8192x128, .f32⟩
  | .hbm, ⟨21, _⟩ => ⟨S128x8192, .f32⟩
  | _, _ => ⟨S128x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  bcast_S524288_S1x524288_1 : S524288.BroadcastsInDim S1x524288 (![1] : Fin 1 → Fin S1x524288.rank)
  bcast_S1x524288_S128x524288_0_1 : S1x524288.BroadcastsInDim S128x524288 (![0, 1] : Fin 2 → Fin S128x524288.rank)
  transposes_S128x524288_S524288x128_1_0 : S128x524288.Transposes [1, 0] S524288x128
  bcast_S_S8192x128 : S_.BroadcastsInDim S8192x128 (![] : Fin 0 → Fin S8192x128.rank)
  transposes_S8192x128_S128x8192_1_0 : S8192x128.Transposes [1, 0] S128x8192
  gather_S128x16384_S524288x1_S128x524288_0_1_n_n_1_1_1281_wf : GatherDims.WF S128x16384 S524288x1 S128x524288 [0] [1] [] [1] [] 1 ![128, 1]
  scatter_S8192x128_S524288x1_S524288x128_1_0_0_1_wf : ScatterDims.WF S8192x128 S524288x1 S524288x128 [1] [0] [0] 1

variable [Facts₀]

def gather_S128x16384_S524288x1_S128x524288_0_1_n_n_1_1_1281 : GatherDims S128x16384 S524288x1 S128x524288 where
  offsetDims := [0]
  collapsedSliceDims := [1]
  operandBatchingDims := []
  startIndicesBatchingDims := []
  startIndexMap := [1]
  indexVectorDim := 1
  sliceSizes := ![128, 1]
  wf := gather_S128x16384_S524288x1_S128x524288_0_1_n_n_1_1_1281_wf
def scatter_S8192x128_S524288x1_S524288x128_1_0_0_1 : ScatterDims S8192x128 S524288x1 S524288x128 where
  updateWindowDims := [1]
  insertedWindowDims := [0]
  scatterDimsToOperandDims := [0]
  indexVectorDim := 1
  wf := scatter_S8192x128_S524288x1_S524288x128_1_0_0_1_wf

class Facts : Prop extends Facts₀ where

variable [Facts]
-- ==== Proof.Spec.lean ====
/-
  The mathematics both programs compute, stated once over the literal shapes and importing neither program.

  A sparse matrix is given as 524288 triplets (value v k, row word row k, column word col k).  Its densification
  `dense` is the [16384, 8192] array whose entry (c, r) is the sum of the values of the triplets with column c and
  row r.  The kernel multiplies x [128, 16384] by that dense array: entry (b, r) of the product is
  `viaDenseAt`, the sum over all 16384 columns c of x(b, c) · dense(c, r).  The reference never builds the dense array:
  entry (b, r) is `GAt`, the sum over the triplets k whose row is r of x(b, col k) · v k.
  The two agree when every x and v entry is a real number (so that multiplication distributes over the finite sums:
  on the extended reals it does not at the infinities) and every column word is a column index:
      Σ_c x(b,c) · Σ_{k : col k = c, row k = r} v k  =  Σ_c Σ_{k : col k = c, row k = r} x(b,c) · v k
                                                      =  Σ_{k : row k = r} x(b, col k) · v k,
  the last step because each triplet k has exactly one column.
-/
import Idealize.ShloMosaic.Lib.ValueIdx

noncomputable section

open scoped BigOperators

namespace Cert.SpMM

open Idealize.ShloMosaic Idealize.ShloMosaic.ValueIdx

/-- x : [128, 16384]. -/
abbrev SX : Shape := ⟨2, ![128, 16384]⟩
/-- The triplet arrays : [524288]. -/
abbrev SK : Shape := ⟨1, ![524288]⟩
/-- The dense matrix : [16384, 8192]. -/
abbrev SD : Shape := ⟨2, ![16384, 8192]⟩
/-- The result : [128, 8192]. -/
abbrev SY : Shape := ⟨2, ![128, 8192]⟩

/-- A column word as a column index: a word below 16384 is itself. -/
def colFin (w : BitVec 32) : Fin 16384 := ⟨w.toNat % 16384, Nat.mod_lt _ (by decide)⟩

theorem colFin_val_of_lt {w : BitVec 32} (h : w.toNat < 16384) : (colFin w).val = w.toNat := Nat.mod_eq_of_lt h

/-- Entry (c, r) of the densified matrix: the sum of the values of the triplets at column c and row r. -/
def denseAt (v : SK.Idx → EReal) (row col : SK.Idx → BitVec 32) (c : Fin 16384) (r : Fin 8192) : EReal :=
  ∑ k : Fin 524288, if (col (ix1 k)).toNat = c.val ∧ (row (ix1 k)).toNat = r.val then v (ix1 k) else 0

/-- The densified matrix as an array. -/
def dense (v : SK.Idx → EReal) (row col : SK.Idx → BitVec 32) : SD.Idx → EReal :=
  fun i => denseAt v row col ⟨(i 0).val, idx2_lt0 i⟩ ⟨(i 1).val, idx2_lt1 i⟩

theorem dense_ix2 (v : SK.Idx → EReal) (row col : SK.Idx → BitVec 32) (c : Fin 16384) (r : Fin 8192) :
    dense v row col (ix2 c r) = denseAt v row col c r := rfl

/-- Entry (b, r) of x times the densified matrix. -/
def viaDenseAt (x : SX.Idx → EReal) (v : SK.Idx → EReal) (row col : SK.Idx → BitVec 32) (b : Fin 128) (r : Fin 8192) : EReal :=
  ∑ c : Fin 16384, x (ix2 b c) * denseAt v row col c r

/-- x times the densified matrix, as an array. -/
def viaDense (x : SX.Idx → EReal) (v : SK.Idx → EReal) (row col : SK.Idx → BitVec 32) : SY.Idx → EReal :=
  fun i => viaDenseAt x v row col ⟨(i 0).val, idx2_lt0 i⟩ ⟨(i 1).val, idx2_lt1 i⟩

theorem viaDense_ix2 (x : SX.Idx → EReal) (v : SK.Idx → EReal) (row col : SK.Idx → BitVec 32) (b : Fin 128) (r : Fin 8192) :
    viaDense x v row col (ix2 b r) = viaDenseAt x v row col b r := rfl

/-- Entry (b, r) of the sparse product: the sum over the triplets of row r of x(b, column) · value. -/
def GAt (x : SX.Idx → EReal) (v : SK.Idx → EReal) (row col : SK.Idx → BitVec 32) (b : Fin 128) (r : Fin 8192) : EReal :=
  ∑ k : Fin 524288, if (row (ix1 k)).toNat = r.val then x (ix2 b (colFin (col (ix1 k)))) * v (ix1 k) else 0

/-- The sparse product as an array. -/
def G (x : SX.Idx → EReal) (v : SK.Idx → EReal) (row col : SK.Idx → BitVec 32) : SY.Idx → EReal :=
  fun i => GAt x v row col ⟨(i 0).val, idx2_lt0 i⟩ ⟨(i 1).val, idx2_lt1 i⟩

theorem G_ix2 (x : SX.Idx → EReal) (v : SK.Idx → EReal) (row col : SK.Idx → BitVec 32) (b : Fin 128) (r : Fin 8192) :
    G x v row col (ix2 b r) = GAt x v row col b r := rfl

/-- The coercion of a finite sum of reals is the finite sum of the coercions. -/
private theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A conditional between a coerced real and zero is the coercion of the real conditional. -/
private theorem coe_ite_zero (q : Prop) [Decidable q] (a : ℝ) :
    (if q then (a : EReal) else 0) = ((if q then a else 0 : ℝ) : EReal) := by
  split <;> simp

/-- The law over the reals and abstract finite index sets: each triplet k has exactly one column `colOf k`,
so summing over all columns c the terms of the triplets at column c visits every triplet once. -/
private theorem real_law {C K : Type*} [Fintype C] [DecidableEq C] [Fintype K]
    (x : C → ℝ) (v : K → ℝ) (colOf : K → C) (p : K → Prop) [DecidablePred p] :
    ∑ c, x c * (∑ k, if colOf k = c ∧ p k then v k else 0)
      = ∑ k, if p k then x (colOf k) * v k else 0 := by
  have h1 : ∀ c, x c * (∑ k, if colOf k = c ∧ p k then v k else 0)
      = ∑ k, if colOf k = c ∧ p k then x c * v k else 0 := by
    intro c
    rw [Finset.mul_sum]
    refine Finset.sum_congr rfl fun k _ => ?_
    rw [mul_ite, mul_zero]
  rw [Finset.sum_congr rfl fun c _ => h1 c, Finset.sum_comm]
  refine Finset.sum_congr rfl fun k _ => ?_
  rw [Finset.sum_eq_single (colOf k)]
  · by_cases hp : p k
    · rw [if_pos ⟨rfl, hp⟩, if_pos hp]
    · rw [if_neg fun h => hp h.2, if_neg hp]
  · intro c _ hc
    exact if_neg fun h => hc h.1.symm
  · intro h
    exact absurd (Finset.mem_univ _) h

/-- The same law for coerced reals in the extended reals: both sides are coercions of the real sides. -/
private theorem ereal_law {C K : Type*} [Fintype C] [DecidableEq C] [Fintype K]
    (x : C → ℝ) (v : K → ℝ) (colOf : K → C) (p : K → Prop) [DecidablePred p] :
    ∑ c, (x c : EReal) * (∑ k, if colOf k = c ∧ p k then (v k : EReal) else 0)
      = ∑ k, if p k then (x (colOf k) : EReal) * (v k : EReal) else 0 := by
  have hL : ∑ c, (x c : EReal) * (∑ k, if colOf k = c ∧ p k then (v k : EReal) else 0)
      = ((∑ c, x c * (∑ k, if colOf k = c ∧ p k then v k else 0) : ℝ) : EReal) := by
    rw [coe_finset_sum]
    refine Finset.sum_congr rfl fun c _ => ?_
    rw [EReal.coe_mul, coe_finset_sum]
    refine congrArg _ (Finset.sum_congr rfl fun k _ => ?_)
    exact coe_ite_zero _ _
  have hR : ∑ k, (if p k then (x (colOf k) : EReal) * (v k : EReal) else 0)
      = ((∑ k, if p k then x (colOf k) * v k else 0 : ℝ) : EReal) := by
    rw [coe_finset_sum]
    refine Finset.sum_congr rfl fun k _ => ?_
    rw [← EReal.coe_mul]
    exact coe_ite_zero _ _
  rw [hL, hR, real_law]

/-- THE LAW: on real entries and in-range column words, the product through the dense matrix is the sparse product. -/
theorem viaDenseAt_eq_GAt (x : SX.Idx → EReal) (v : SK.Idx → EReal) (row col : SK.Idx → BitVec 32)
    (hx : ∀ i, ∃ a : ℝ, x i = (a : EReal)) (hv : ∀ k, ∃ a : ℝ, v k = (a : EReal))
    (hcol : ∀ k, (col k).toNat < 16384) (b : Fin 128) (r : Fin 8192) :
    viaDenseAt x v row col b r = GAt x v row col b r := by
  choose x' hx' using hx
  choose v' hv' using hv
  have hc : ∀ (k : Fin 524288) (c : Fin 16384),
      ((col (ix1 k)).toNat = c.val ∧ (row (ix1 k)).toNat = r.val)
        ↔ (colFin (col (ix1 k)) = c ∧ (row (ix1 k)).toNat = r.val) := by
    intro k c
    rw [Fin.ext_iff, colFin_val_of_lt (hcol (ix1 k))]
  have hlaw := ereal_law (fun c : Fin 16384 => x' (ix2 b c)) (fun k : Fin 524288 => v' (ix1 k))
    (fun k => colFin (col (ix1 k))) (fun k => (row (ix1 k)).toNat = r.val)
  unfold viaDenseAt GAt denseAt
  refine Eq.trans ?_ (hlaw.trans ?_)
  · refine Finset.sum_congr rfl fun c _ => ?_
    rw [hx']
    refine congrArg _ (Finset.sum_congr rfl fun k _ => ?_)
    rw [hv']
    exact if_congr (hc k c) rfl rfl
  · refine Finset.sum_congr rfl fun k _ => ?_
    rw [hx', hv']

theorem viaDense_eq_G (x : SX.Idx → EReal) (v : SK.Idx → EReal) (row col : SK.Idx → BitVec 32)
    (hx : ∀ i, ∃ a : ℝ, x i = (a : EReal)) (hv : ∀ k, ∃ a : ℝ, v k = (a : EReal))
    (hcol : ∀ k, (col k).toNat < 16384) :
    viaDense x v row col = G x v row col :=
  funext fun i => viaDenseAt_eq_GAt x v row col hx hv hcol _ _

end Cert.SpMM

end
-- ==== Proof.Pre.lean ====
/-
  From the printed precondition to the four facts the value proof uses: every entry of x and of the values is a
  real number, every row word is a row index (below 8192) and every column word a column index (below 16384).
-/
import proofs.«414386_j45758581572284_3_alg».proof.Pre_finite_inputs
import proofs.«414386_j45758581572284_3_alg».proof.Proof.Gen.Pre_finite_inputs
import Idealize.ShloMosaic.Lib.ReduceAll
import Idealize.ShloMosaic.Lib.StableHlo.Predicate
import Idealize.ShloMosaic.Lib.ValueIdx

noncomputable section

namespace Cert.SpMM.Pre

open Idealize.ShloMosaic Idealize.ShloMosaic.ValueIdx Cert.Pre_finite_inputs

/-- The rank-0 shape has exactly one index. -/
private instance subsingleton_scalar_idx : Subsingleton S_.Idx := ⟨fun a b => funext fun d => d.elim0⟩

/-- An extended real whose absolute value max e (−e) is strictly below +∞ is a real number: at e = +∞ the maximum
    is +∞, at e = −∞ it is max (−∞) (+∞) = +∞, and +∞ is not strictly below itself. -/
private theorem real_of_abs_lt_top (e : EReal)
    (h : Ideal.cmp .olt (max e (-e)) (Ideal.ofBits .f32 0x7F800000#32) = 1#1) : ∃ a : ℝ, e = (a : EReal) := by
  have htop : Ideal.ofBits .f32 0x7F800000#32 = (⊤ : EReal) := by simp [Ideal.ofBits, Ideal.ieee]
  rw [htop] at h
  have hlt : max e (-e) < (⊤ : EReal) := by
    by_contra hn
    simp [Ideal.cmp, hn] at h
  induction e using EReal.rec with
  | bot => simp at hlt
  | coe a => exact ⟨a, rfl⟩
  | top => simp at hlt

/-- A word that is non-negative as a signed number and, signed, below a bound n < 2³¹ is below n as an unsigned
    number: non-negative signed means the unsigned reading is below 2³¹, where the two readings agree. -/
private theorem toNat_lt_of_signed (w : BitVec 32) (n : ℕ) (hn : n < 2 ^ 31)
    (h0 : IntOp.cmpi .sge w 0#32 = 1#1) (h1 : IntOp.cmpi .slt w (BitVec.ofNat 32 n) = 1#1) : w.toNat < n := by
  rw [IntOp.cmpi_sge, show (0#32 : BitVec 32).toInt = 0 from by decide] at h0
  rw [IntOp.cmpi_slt, StableHlo.Predicate.toInt_ofNat_small n hn] at h1
  have hw := w.isLt
  rw [BitVec.toInt_eq_toNat_cond] at h0 h1
  split at h0 <;> omega

/-- The precondition, all ones, says: x and the values are real, the row words are below 8192 and the column words
    below 16384 (as unsigned numbers: a word that is non-negative as a signed number and below the bound). -/
theorem of_pre (x : FVec Ideal S128x16384 .f32) (v : FVec Ideal S524288 .f32) (row col : IVec S524288 32)
    (h : Cert.Pre_finite_inputs.fn (F := Ideal) x v row col = fun _ => 1#1) :
    (∀ i, ∃ a : ℝ, x i = (a : EReal)) ∧ (∀ k, ∃ a : ℝ, v k = (a : EReal))
      ∧ (∀ k, (row k).toNat < 8192) ∧ (∀ k, (col k).toNat < 16384) := by
  -- the predicate's one element is the conjunction of six all-reductions
  have h0 := congrFun h ValueIdx.ix0
  dsimp only [fn, fn_part1] at h0
  obtain ⟨h1, hc1⟩ := IntOp.andi_eq_one.1 h0
  obtain ⟨h2, hc0⟩ := IntOp.andi_eq_one.1 h1
  obtain ⟨h3, hr1⟩ := IntOp.andi_eq_one.1 h2
  obtain ⟨h4, hr0⟩ := IntOp.andi_eq_one.1 h3
  obtain ⟨hx, hv⟩ := IntOp.andi_eq_one.1 h4
  -- an all-reduction by "and" that is 1 had a 1 at every element; each element is the comparison at that index
  refine ⟨fun i => ?_, fun k => ?_, fun k => ?_, fun k => ?_⟩
  · exact real_of_abs_lt_top (x i) (Host.reduce_andi_all _ _ _ _ _ hx i)
  · exact real_of_abs_lt_top (v k) (Host.reduce_andi_all _ _ _ _ _ hv k)
  · exact toNat_lt_of_signed (row k) 8192 (by norm_num) (Host.reduce_andi_all _ _ _ _ _ hr0 k)
      (Host.reduce_andi_all _ _ _ _ _ hr1 k)
  · exact toNat_lt_of_signed (col k) 16384 (by norm_num) (Host.reduce_andi_all _ _ _ _ _ hc0 k)
      (Host.reduce_andi_all _ _ _ _ _ hc1 k)

end Cert.SpMM.Pre

end
-- ==== Proof.RefValue.lean ====
/-
  The reference's result, read at an index: entry (b, r) is the sum over the triplets of row r of
  x(b, column) · value — the sparse product `Cert.SpMM.G`.
-/
import proofs.«414386_j45758581572284_3_alg».proof.Proof.Gen.ReferenceIdeal.Read
import proofs.«414386_j45758581572284_3_alg».proof.Proof.Spec
import Idealize.ShloMosaic.Lib.ValueIdx
import Idealize.ShloMosaic.Lib.Pipeline.Value
import Idealize.ShloMosaic.Lib.StableHlo.Predicate
import Idealize.ShloMosaic.PureOps.Ideal.Laws

noncomputable section

namespace Cert.ReferenceIdeal.RefValue

open Idealize.ShloMosaic Idealize.ShloMosaic.ValueIdx Cert.ReferenceIdeal Cert.ReferenceIdeal.Gen

open scoped BigOperators

/-- The scatter's dimension numbers: operand [8192, 128], indices [524288, 1], updates [524288, 128]. -/
private abbrev sd := scatter_S8192x128_S524288x1_S524288x128_1_0_0_1
/-- The gather's dimension numbers: operand [128, 16384], start indices [524288, 1], result [128, 524288]. -/
private abbrev gd := gather_S128x16384_S524288x1_S128x524288_0_1_n_n_1_1_1281

/-! ## The scatter: where update (k, b') lands -/

/-- On operand axis 0 the window of update (k, b') starts at the index word of triplet k, read signed. -/
private theorem scatter_start0 (idx : IVec S524288x1 32) (k : Fin 524288) (b' : Fin 128) :
    sd.start (ix2 k b') idx 0 = (idx (ix2 k 0)).toInt := by
  unfold ScatterDims.start
  rw [dif_pos (show (0 : Fin 2) ∈ sd.scatterDimsToOperandDims from List.mem_singleton.mpr rfl)]
  have hsi : sd.siIdx (ix2 k b') ⟨List.idxOf (0 : Fin 2) sd.scatterDimsToOperandDims,
      List.idxOf_lt_length_iff.2 (List.mem_singleton.mpr rfl)⟩ = ix2 k 0 := by
    funext a; refine Fin.ext ?_
    match a with
    | ⟨0, _⟩ => rfl
    | ⟨1, _⟩ => rfl
  rw [hsi]

/-- Operand axis 1 is not an axis the index words address: the window starts at 0 there. -/
private theorem scatter_start1 (idx : IVec S524288x1 32) (k : Fin 524288) (b' : Fin 128) :
    sd.start (ix2 k b') idx 1 = 0 := by
  unfold ScatterDims.start
  rw [dif_neg (show (1 : Fin 2) ∉ sd.scatterDimsToOperandDims from by decide)]

/-- Operand axis 0 is an inserted axis: the window coordinate there is 0. -/
private theorem scatter_window0 (k : Fin 524288) (b' : Fin 128) : sd.window (ix2 k b') 0 = 0 := by
  unfold ScatterDims.window
  rw [dif_neg (show (0 : Fin 2) ∉ sd.sKept from by decide)]

/-- On operand axis 1 the window coordinate is the update's second coordinate. -/
private theorem scatter_window1 (k : Fin 524288) (b' : Fin 128) : sd.window (ix2 k b') 1 = b'.val := by
  unfold ScatterDims.window
  rw [dif_pos (show (1 : Fin 2) ∈ sd.sKept from by decide)]
  rfl

/-- Update (k, b') lands at (index word of k, b') when that word is a row index. -/
private theorem scatter_resultIdx (idx : IVec S524288x1 32) (k : Fin 524288) (b' : Fin 128)
    (h : (idx (ix2 k 0)).toNat < 8192) :
    sd.resultIdx? (ix2 k b') idx = some (ix2 (⟨(idx (ix2 k 0)).toNat, h⟩ : Fin 8192) b') := by
  have hti : (idx (ix2 k 0)).toInt = ((idx (ix2 k 0)).toNat : Int) :=
    StableHlo.Predicate.toInt_eq_toNat_of_lt (by omega)
  have hb' : b'.val < 128 := b'.isLt
  have hall : ∀ a, 0 ≤ sd.start (ix2 k b') idx a + sd.window (ix2 k b') a ∧
      sd.start (ix2 k b') idx a + sd.window (ix2 k b') a < S8192x128.size a := by
    intro a
    match a with
    | ⟨0, _⟩ =>
      show 0 ≤ sd.start (ix2 k b') idx 0 + sd.window (ix2 k b') 0 ∧
        sd.start (ix2 k b') idx 0 + sd.window (ix2 k b') 0 < ((8192 : Nat) : Int)
      rw [scatter_start0, scatter_window0, hti]; omega
    | ⟨1, _⟩ =>
      show 0 ≤ sd.start (ix2 k b') idx 1 + sd.window (ix2 k b') 1 ∧
        sd.start (ix2 k b') idx 1 + sd.window (ix2 k b') 1 < ((128 : Nat) : Int)
      rw [scatter_start1, scatter_window1]; omega
  unfold ScatterDims.resultIdx?
  rw [dif_pos hall]
  refine congrArg some ?_
  funext a
  refine Fin.ext ?_
  match a with
  | ⟨0, _⟩ =>
    show (sd.start (ix2 k b') idx 0 + sd.window (ix2 k b') 0).toNat = (idx (ix2 k 0)).toNat
    rw [scatter_start0, scatter_window0, hti]; omega
  | ⟨1, _⟩ =>
    show (sd.start (ix2 k b') idx 1 + sd.window (ix2 k b') 1).toNat = b'.val
    rw [scatter_start1, scatter_window1]; omega

/-- Update (k, b') lands at (r, b) exactly when the index word of k is r and b' is b. -/
private theorem scatter_hits (idx : IVec S524288x1 32) (hidx : ∀ k : Fin 524288, (idx (ix2 k 0)).toNat < 8192)
    (k : Fin 524288) (b' b : Fin 128) (r : Fin 8192) :
    sd.resultIdx? (ix2 k b') idx = some (ix2 r b) ↔ ((idx (ix2 k 0)).toNat = r.val ∧ b' = b) := by
  rw [scatter_resultIdx idx k b' (hidx k)]
  constructor
  · intro h
    have h' := Option.some.inj h
    have h0 : (⟨(idx (ix2 k 0)).toNat, hidx k⟩ : Fin 8192) = r := congrFun h' 0
    have h1 : b' = b := congrFun h' 1
    exact ⟨congrArg Fin.val h0, h1⟩
  · rintro ⟨h0, rfl⟩
    have : (⟨(idx (ix2 k 0)).toNat, hidx k⟩ : Fin 8192) = r := Fin.ext h0
    rw [this]

/-- The updates that land at (r, b), summed: one per triplet whose index word is r, at column b. -/
private theorem scatter_sum (idx : IVec S524288x1 32) (hidx : ∀ k : Fin 524288, (idx (ix2 k 0)).toNat < 8192)
    (upd : S524288x128.Idx → EReal) (r : Fin 8192) (b : Fin 128)
    [DecidablePred fun j : S524288x128.Idx => sd.resultIdx? j idx = some (ix2 r b)] :
    ∑ j ∈ Finset.univ.filter (fun j : S524288x128.Idx => sd.resultIdx? j idx = some (ix2 r b)), upd j
      = ∑ k : Fin 524288, if (idx (ix2 k 0)).toNat = r.val then upd (ix2 k b) else 0 := by
  rw [Finset.sum_filter, sum_idx2]
  refine Finset.sum_congr rfl fun k _ => ?_
  by_cases hk : (idx (ix2 k 0)).toNat = r.val
  · rw [if_pos hk, Finset.sum_eq_single b]
    · rw [if_pos ((scatter_hits idx hidx k b b r).mpr ⟨hk, rfl⟩)]
    · intro b' _ hb'
      rw [if_neg (fun h => hb' ((scatter_hits idx hidx k b' b r).mp h).2)]
    · intro h; exact absurd (Finset.mem_univ b) h
  · rw [if_neg hk]
    refine Finset.sum_eq_zero fun b' _ => ?_
    rw [if_neg (fun h => hk ((scatter_hits idx hidx k b' b r).mp h).1)]

/-! ## The gather: which element of x result (b', k) reads -/

/-- Result (b', k) reads x at row b' and at the start word of k, read signed and clamped into the columns. -/
private theorem gather_apply {α : Type} (x : S128x16384.Idx → α) (idx : IVec S524288x1 32) (b' : Fin 128)
    (k : Fin 524288) :
    Host.gather gd x idx (ix2 b' k)
      = x (ix2 b' (⟨min (idx (ix2 k 0)).toInt.toNat 16383, by omega⟩ : Fin 16384)) := by
  unfold Host.gather
  refine congrArg x ?_
  funext a
  refine Fin.ext ?_
  match a with
  | ⟨0, _⟩ =>
    show gd.start (ix2 b' k) idx 0 + gd.batchCoord (ix2 b' k) 0 + gd.offCoord (ix2 b' k) 0 = b'.val
    have hs : gd.start (ix2 b' k) idx 0 = 0 := by
      unfold GatherDims.start
      rw [dif_neg (show (0 : Fin 2) ∉ gd.startIndexMap from by decide)]
    have ho : gd.offCoord (ix2 b' k) 0 = b'.val := by
      unfold GatherDims.offCoord
      rw [dif_pos (show (0 : Fin 2) ∈ gd.sKept from by decide)]
      rfl
    rw [GatherDims.batchCoord_eq_zero _ _ _ List.not_mem_nil, hs, ho, Nat.zero_add]
  | ⟨1, _⟩ =>
    show gd.start (ix2 b' k) idx 1 + gd.batchCoord (ix2 b' k) 1 + gd.offCoord (ix2 b' k) 1
      = min (idx (ix2 k 0)).toInt.toNat 16383
    rw [GatherDims.batchCoord_eq_zero _ _ _ List.not_mem_nil,
      GatherDims.offCoord_eq_zero _ _ _ (show (1 : Fin 2) ∉ gd.sKept from by decide)]
    simp only [Nat.add_zero]
    unfold GatherDims.start
    rw [dif_pos (show (1 : Fin 2) ∈ gd.startIndexMap from List.mem_singleton.mpr rfl)]
    have hsi : gd.siIdx (ix2 b' k) ⟨List.idxOf (1 : Fin 2) gd.startIndexMap,
        List.idxOf_lt_length_iff.2 (List.mem_singleton.mpr rfl)⟩ = ix2 k 0 := by
      funext c; refine Fin.ext ?_
      match c with
      | ⟨0, _⟩ => rfl
      | ⟨1, _⟩ => rfl
    rw [hsi]
    rfl

/-! ## The stages at an index -/

/-- A column word that is a column index is not negative read signed: the wrap-around select keeps it. -/
private theorem v4_apply (col : IVec S524288 32) (hcol : ∀ k, (col k).toNat < 16384) (k : Fin 524288) :
    Read.val_main_v4 (F := Ideal) col (ix1 k) = col (ix1 k) := by
  rw [Read.val_main_v4_apply, Read.val_main_v1_apply, Read.val_main_v0_apply, Read.val_main_c_apply]
  have hc := hcol (ix1 k)
  have hn : ¬ IntOp.cmpi .slt (col (ix1 k)) 0#32 = 1#1 := by
    rw [StableHlo.Predicate.slt_iff_toNat (by omega) (by decide)]
    intro h; exact Nat.not_lt_zero _ h
  rw [eq_zero_of_ne_one hn, select_zero]

private theorem v5_apply (col : IVec S524288 32) (hcol : ∀ k, (col k).toNat < 16384) (k : Fin 524288) :
    Read.val_main_v5 (F := Ideal) col (ix2 k 0) = col (ix1 k) := by
  rw [Read.val_main_v5_apply]
  have h5 : Read.idx_main_v5 (ix2 k (0 : Fin 1)) = ix1 k := by
    funext a; match a with | ⟨0, _⟩ => rfl
  rw [h5, v4_apply col hcol k]

private theorem v12_apply (row : IVec S524288 32) (k : Fin 524288) :
    Read.val_main_v12 (F := Ideal) row (ix2 k 0) = row (ix1 k) := by
  rw [Read.val_main_v12_apply]
  have h12 : Read.idx_main_v12 (ix2 k (0 : Fin 1)) = ix1 k := by
    funext a; match a with | ⟨0, _⟩ => rfl
  rw [h12]

/-- The update at (k, b): x at (b, column of k) times the value of k. -/
private theorem v10_apply (x : FVec Ideal S128x16384 .f32) (v : FVec Ideal S524288 .f32) (col : IVec S524288 32)
    (hcol : ∀ k, (col k).toNat < 16384) (k : Fin 524288) (b : Fin 128) :
    Read.val_main_v10 (F := Ideal) x v col (ix2 k b)
      = x (ix2 b (Cert.SpMM.colFin (col (ix1 k)))) * v (ix1 k) := by
  rw [Read.val_main_v10_apply]
  have h10 : Read.idx_main_v10 (ix2 k b) = ix2 b k := by
    funext a; match a with | ⟨0, _⟩ => rfl | ⟨1, _⟩ => rfl
  rw [h10, Read.val_main_v9_apply]
  have h8 : Read.val_main_v8 (F := Ideal) v (ix2 b k) = v (ix1 k) := by
    rw [Read.val_main_v8_apply, Read.val_main_v7_apply]
    refine congrArg v ?_
    funext a; match a with | ⟨0, _⟩ => rfl
  have h6 : Read.val_main_v6 (F := Ideal) x col (ix2 b k) = x (ix2 b (Cert.SpMM.colFin (col (ix1 k)))) := by
    unfold Read.val_main_v6
    rw [gather_apply]
    refine congrArg (fun c => x (ix2 b c)) (Fin.ext ?_)
    show min (Read.val_main_v5 (F := Ideal) col (ix2 k 0)).toInt.toNat 16383 = (col (ix1 k)).toNat % 16384
    have hc := hcol (ix1 k)
    rw [v5_apply col hcol k, StableHlo.Predicate.toInt_eq_toNat_of_lt (by omega)]
    omega
  rw [h6, h8]
  rfl

/-- The scatter's operand is zero everywhere. -/
private theorem v11_apply (i : S8192x128.Idx) : Read.val_main_v11 (F := Ideal) i = 0 := by
  rw [Read.val_main_v11_apply, Read.val_main_cst_apply]
  exact Ideal.ofBits_zero_f32

/-- The scattered array at (r, b): the sum over the triplets of row r of their updates at column b. -/
private theorem v13_apply (x : FVec Ideal S128x16384 .f32) (v : FVec Ideal S524288 .f32) (row col : IVec S524288 32)
    (hrow : ∀ k, (row k).toNat < 8192) (r : Fin 8192) (b : Fin 128) :
    Read.val_main_v13 (F := Ideal) x v row col (ix2 r b)
      = ∑ k : Fin 524288, if (row (ix1 k)).toNat = r.val
          then Read.val_main_v10 (F := Ideal) x v col (ix2 k b) else 0 := by
  have hidx : ∀ k : Fin 524288, (Read.val_main_v12 (F := Ideal) row (ix2 k 0)).toNat < 8192 := fun k => by
    rw [v12_apply]; exact hrow _
  show Ideal.hostScatterAdd sd (Read.val_main_v11 (F := Ideal)) (Read.val_main_v12 (F := Ideal) row)
    (Read.val_main_v10 (F := Ideal) x v col) (ix2 r b) = _
  unfold Ideal.hostScatterAdd
  rw [v11_apply, zero_add, scatter_sum _ hidx _ r b]
  refine Finset.sum_congr rfl fun k _ => ?_
  rw [v12_apply]

/-- The reference's last stage is the sparse product, when the row words are row indices and the column words
    column indices. -/
theorem ref_eq_G (x : FVec Ideal S128x16384 .f32) (v : FVec Ideal S524288 .f32) (row col : IVec S524288 32)
    (hrow : ∀ k, (row k).toNat < 8192) (hcol : ∀ k, (col k).toNat < 16384) :
    Cert.ReferenceIdeal.Read.val_main_v14 (F := Ideal) x v row col = Cert.SpMM.G x v row col := by
  funext i
  obtain ⟨b, r, rfl⟩ : ∃ (b : Fin 128) (r : Fin 8192), i = ix2 b r := ⟨i 0, i 1, eq_ix2 i⟩
  rw [Read.val_main_v14_apply, Cert.SpMM.G_ix2]
  have h14 : Read.idx_main_v14 (ix2 b r) = ix2 r b := by
    funext a; match a with | ⟨0, _⟩ => rfl | ⟨1, _⟩ => rfl
  rw [h14, v13_apply x v row col hrow r b]
  unfold Cert.SpMM.GAt
  refine Finset.sum_congr rfl fun k _ => ?_
  rw [v10_apply x v col hcol k b]

end Cert.ReferenceIdeal.RefValue

end
-- ==== Proof.KernelHost.lean ====
/-
  What the kernel's region finds in its two operand arrays: x itself (a change of float format is the identity on the
  extended reals) and the densified matrix `Cert.SpMM.dense` (the host's accumulating scatter of the values at
  (column, row), likewise converted).
-/
import proofs.«414386_j45758581572284_3_alg».proof.Proof.Gen.KernelIdeal.Frame
import proofs.«414386_j45758581572284_3_alg».proof.Proof.Spec
import Idealize.ShloMosaic.Lib.ValueIdx
import Idealize.ShloMosaic.Lib.Pipeline.Value
import Idealize.ShloMosaic.Lib.StableHlo.Run
import Idealize.ShloMosaic.Lib.StableHlo.Predicate
import Idealize.ShloMosaic.Lib.ValueIdxRank1
import Idealize.ShloMosaic.PureOps.Ideal.Laws

noncomputable section

namespace Cert.KernelIdeal.HostValue

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- The host's index normalisation: a word that is negative as a signed number gets the extent added. -/
private def norm (ext : BitVec 32) (a : IVec S524288 32) : IVec S524288 32 :=
  select (cmpi .slt a (broadcastInDim S524288 ![] bcast_S_S524288 (constantI S_ 32 0#32)))
    (addi a (broadcastInDim S524288 ![] bcast_S_S524288 (constantI S_ 32 ext))) a

/-- The scatter's index array: row k is (normalised column word, normalised row word) of triplet k. -/
private def idx2 (col row : IVec S524288 32) : IVec S524288x2 32 :=
  concatenate S524288x2 1
    [⟨S524288x1, broadcastInDim S524288x1 ![0] bcast_S524288_S524288x1_0 (norm 16384#32 col)⟩,
     ⟨S524288x1, broadcastInDim S524288x1 ![0] bcast_S524288_S524288x1_0 (norm 8192#32 row)⟩]
    concatenates_S524288x1_S524288x1_S524288x2_d1

/-- The array of zeros the scatter accumulates into. -/
private def zeros : FVec Ideal S16384x8192 .f32 :=
  broadcastInDim S16384x8192 ![] bcast_S_S16384x8192 (constant (F := Ideal) S_ .f32 0x00000000#32)

set_option maxHeartbeats 2000000 in
/-- The second operand array as the host operations' term. -/
private theorem V_dense_term (c : Dev nD) :
    @Eq (S16384x8192.Idx → EReal) (V m c main_v15)
      (truncf (F := Ideal) .bf16
        (Host.scatterAdd (F := Ideal) scatter_S16384x8192_S524288x2_S524288_n_01_01_1 zeros
          (idx2 (m ((c : Thread nD τ).loc main_arg3)) (m ((c : Thread nD τ).loc main_arg2)))
          (m ((c : Thread nD τ).loc main_arg1)))
        bitsLt_bf16_f32) := by
  dsimp only [Gen.V, Gen.hostOps0]; after_results_simp
  all_goals (first | done | rfl)

/-- A word below 2³¹ is not negative as a signed number: the normalisation leaves it. -/
private theorem norm_apply (ext : BitVec 32) (a : IVec S524288 32) (j : S524288.Idx) (h : (a j).toNat < 2 ^ 31) :
    norm ext a j = a j := by
  have hc : IntOp.cmpi .slt (a j) 0#32 = 0#1 := by
    refine eq_zero_of_ne_one fun h1 => ?_
    have := (StableHlo.Predicate.slt_iff_toNat h (by decide)).mp h1
    simp at this
  show Scalar.select (IntOp.cmpi .slt (a j) 0#32) _ (a j) = a j
  rw [hc, select_zero]

/-- Column 0 of row k of the index array is the normalised column word of triplet k. -/
private theorem idx2_at0 (col row : IVec S524288 32) (k : Fin 524288) :
    idx2 col row (ix2 k (0 : Fin 2)) = norm 16384#32 col (ix1 k) := by
  unfold idx2
  refine (concatenate_pair_apply_left (t := S524288x2) (s₁ := S524288x1) (s₂ := S524288x1) (1 : Fin 2) _ _ concatenates_S524288x1_S524288x1_S524288x2_d1
    (ix2 k (0 : Fin 2)) rfl (ix2 k (0 : Fin 1)) ?_).trans ?_
  · intro b; match b with
    | ⟨0, _⟩ => rfl
    | ⟨1, _⟩ => rfl
  · refine broadcastInDim_apply ![0] bcast_S524288_S524288x1_0 _ (ix2 k (0 : Fin 1)) (ix1 k) ?_
    intro a; match a with
    | ⟨0, _⟩ => rfl

/-- Column 1 of row k of the index array is the normalised row word of triplet k. -/
private theorem idx2_at1 (col row : IVec S524288 32) (k : Fin 524288) :
    idx2 col row (ix2 k (1 : Fin 2)) = norm 8192#32 row (ix1 k) := by
  unfold idx2
  refine (concatenate_pair_apply_right (t := S524288x2) (s₁ := S524288x1) (s₂ := S524288x1) (1 : Fin 2) _ _ concatenates_S524288x1_S524288x1_S524288x2_d1
    (ix2 k (1 : Fin 2)) rfl rfl (ix2 k (0 : Fin 1)) ?_ ?_).trans ?_
  · intro b hb; match b, hb with
    | ⟨0, _⟩, _ => rfl
    | ⟨1, _⟩, hb => exact absurd rfl hb
  · rfl
  · refine broadcastInDim_apply ![0] bcast_S524288_S524288x1_0 _ (ix2 k (0 : Fin 1)) (ix1 k) ?_
    intro a; match a with
    | ⟨0, _⟩ => rfl

/-- The scatter's dimension numbers: no window axes, index vectors along axis 1, component c the start on operand axis c. -/
private abbrev sd : ScatterDims S16384x8192 S524288x2 S524288 := scatter_S16384x8192_S524288x2_S524288_n_01_01_1

/-- No operand axis is a window axis: every window coordinate is zero. -/
private theorem window_zero (j : S524288.Idx) (a : Fin 2) : sd.window j a = 0 := by
  unfold ScatterDims.window
  have hk : sd.sKept = [] := by decide
  exact dif_neg (by rw [hk]; exact List.not_mem_nil)

/-- The start on operand axis 0 for update k is column 0 of row k of the index array, read signed. -/
private theorem start_zero (k : Fin 524288) (idx : IVec S524288x2 32) :
    sd.start (ix1 k) idx (0 : Fin 2) = (idx (ix2 k (0 : Fin 2))).toInt := by
  unfold ScatterDims.start
  rw [dif_pos (show (0 : Fin 2) ∈ sd.scatterDimsToOperandDims from by decide)]
  refine congrArg (fun z => (idx z).toInt) ?_
  funext b; refine Fin.ext ?_
  match b with
  | ⟨0, _⟩ => rfl
  | ⟨1, _⟩ => rfl

/-- The start on operand axis 1 for update k is column 1 of row k of the index array, read signed. -/
private theorem start_one (k : Fin 524288) (idx : IVec S524288x2 32) :
    sd.start (ix1 k) idx (1 : Fin 2) = (idx (ix2 k (1 : Fin 2))).toInt := by
  unfold ScatterDims.start
  rw [dif_pos (show (1 : Fin 2) ∈ sd.scatterDimsToOperandDims from by decide)]
  refine congrArg (fun z => (idx z).toInt) ?_
  funext b; refine Fin.ext ?_
  match b with
  | ⟨0, _⟩ => rfl
  | ⟨1, _⟩ => rfl

/-- Where update k lands: at (column word, row word) of row k of the index array, when both are in range. -/
private theorem resultIdx?_eq (idx : IVec S524288x2 32) (k : Fin 524288)
    (h0 : (idx (ix2 k (0 : Fin 2))).toNat < 16384) (h1 : (idx (ix2 k (1 : Fin 2))).toNat < 8192) :
    sd.resultIdx? (ix1 k) idx
      = some (ix2 (⟨(idx (ix2 k (0 : Fin 2))).toNat, h0⟩ : Fin 16384) (⟨(idx (ix2 k (1 : Fin 2))).toNat, h1⟩ : Fin 8192)) := by
  have e0 : sd.start (ix1 k) idx (0 : Fin 2) + ((sd.window (ix1 k) (0 : Fin 2) : Nat) : Int)
      = (((idx (ix2 k (0 : Fin 2))).toNat : Nat) : Int) := by
    rw [start_zero, window_zero, StableHlo.Predicate.toInt_eq_toNat_of_lt (by omega)]; simp
  have e1 : sd.start (ix1 k) idx (1 : Fin 2) + ((sd.window (ix1 k) (1 : Fin 2) : Nat) : Int)
      = (((idx (ix2 k (1 : Fin 2))).toNat : Nat) : Int) := by
    rw [start_one, window_zero, StableHlo.Predicate.toInt_eq_toNat_of_lt (by omega)]; simp
  have hall : ∀ a : Fin 2, 0 ≤ sd.start (ix1 k) idx a + ((sd.window (ix1 k) a : Nat) : Int)
      ∧ sd.start (ix1 k) idx a + ((sd.window (ix1 k) a : Nat) : Int) < ((S16384x8192.size a : Nat) : Int) := by
    intro a
    match a with
    | ⟨0, _⟩ =>
      show 0 ≤ sd.start (ix1 k) idx (0 : Fin 2) + ((sd.window (ix1 k) (0 : Fin 2) : Nat) : Int)
        ∧ sd.start (ix1 k) idx (0 : Fin 2) + ((sd.window (ix1 k) (0 : Fin 2) : Nat) : Int) < ((16384 : Nat) : Int)
      rw [e0]; omega
    | ⟨1, _⟩ =>
      show 0 ≤ sd.start (ix1 k) idx (1 : Fin 2) + ((sd.window (ix1 k) (1 : Fin 2) : Nat) : Int)
        ∧ sd.start (ix1 k) idx (1 : Fin 2) + ((sd.window (ix1 k) (1 : Fin 2) : Nat) : Int) < ((8192 : Nat) : Int)
      rw [e1]; omega
  unfold ScatterDims.resultIdx?
  rw [dif_pos hall]
  refine congrArg some (funext fun a => Fin.ext ?_)
  match a with
  | ⟨0, _⟩ =>
    show (sd.start (ix1 k) idx (0 : Fin 2) + ((sd.window (ix1 k) (0 : Fin 2) : Nat) : Int)).toNat = (idx (ix2 k (0 : Fin 2))).toNat
    rw [e0]; rfl
  | ⟨1, _⟩ =>
    show (sd.start (ix1 k) idx (1 : Fin 2) + ((sd.window (ix1 k) (1 : Fin 2) : Nat) : Int)).toNat = (idx (ix2 k (1 : Fin 2))).toNat
    rw [e1]; rfl

/-- Two rank-2 indices agree exactly when their coordinates do. -/
private theorem ix2_eq_iff {n0 n1 : Nat} (a p : Fin n0) (b q : Fin n1) :
    (ix2 a b = ix2 p q) ↔ a = p ∧ b = q := by
  constructor
  · intro h
    have h0 : ix2 a b (⟨0, by decide⟩ : Fin 2) = ix2 p q (⟨0, by decide⟩ : Fin 2) := congrFun h _
    have h1 : ix2 a b (⟨1, by decide⟩ : Fin 2) = ix2 p q (⟨1, by decide⟩ : Fin 2) := congrFun h _
    exact ⟨h0, h1⟩
  · rintro ⟨rfl, rfl⟩; rfl

/-- THE SCATTER READ AT (p, q): the accumulating scatter of the values at (column, row) into zeros, converted, is the
    sum of the values of the triplets at column p and row q. -/
private theorem scatter_at (v : FVec Ideal S524288 .f32) (row col : IVec S524288 32)
    (hrow : ∀ j, (row j).toNat < 8192) (hcol : ∀ j, (col j).toNat < 16384) (p : Fin 16384) (q : Fin 8192) :
    (truncf (F := Ideal) .bf16 (Host.scatterAdd (F := Ideal) sd zeros (idx2 col row) v) bitsLt_bf16_f32 :
        S16384x8192.Idx → EReal) (ix2 p q)
      = Cert.SpMM.denseAt v row col p q := by
  show Ideal.hostScatterAdd sd zeros (idx2 col row) v (ix2 p q) = _
  unfold Ideal.hostScatterAdd Cert.SpMM.denseAt
  have hz : zeros (ix2 p q) = 0 := Ideal.ofBits_zero_f32
  rw [hz, zero_add, Finset.sum_filter, ← Equiv.sum_comp (idxEquiv1 (n := 524288)).symm]
  refine Finset.sum_congr rfl fun k _ => ?_
  have h0 : idx2 col row (ix2 k (0 : Fin 2)) = col (ix1 k) :=
    (idx2_at0 col row k).trans (norm_apply _ _ _ (by have := hcol (ix1 k); omega))
  have h1 : idx2 col row (ix2 k (1 : Fin 2)) = row (ix1 k) :=
    (idx2_at1 col row k).trans (norm_apply _ _ _ (by have := hrow (ix1 k); omega))
  show (if sd.resultIdx? (ix1 k) (idx2 col row) = some (ix2 p q) then v (ix1 k) else 0) = _
  rw [resultIdx?_eq (idx2 col row) k (by rw [h0]; exact hcol _) (by rw [h1]; exact hrow _)]
  refine if_congr ?_ rfl rfl
  rw [Option.some.injEq, ix2_eq_iff, Fin.ext_iff, Fin.ext_iff]
  show (idx2 col row (ix2 k (0 : Fin 2))).toNat = p.val ∧ (idx2 col row (ix2 k (1 : Fin 2))).toNat = q.val ↔ _
  rw [h0, h1]

/-- The first operand array of the region is x. -/
theorem V_x (c : Dev nD) :
    (V m c main_v16 : S128x16384.Idx → EReal) = m ((c : Thread nD τ).loc main_arg0) := by
  have e : @Eq (S128x16384.Idx → EReal) (V m c main_v16)
      (truncf (F := Ideal) .bf16 (m ((c : Thread nD τ).loc main_arg0) : S128x16384.Idx → EReal) bitsLt_bf16_f32) := by
    dsimp only [Gen.V, Gen.hostOps0]; after_results_simp
    all_goals (first | done | rfl)
  exact e

/-- The second operand array of the region is the densified matrix, when the row words are row indices and the
    column words column indices. -/
theorem V_dense (c : Dev nD)
    (hrow : ∀ k, ((m ((c : Thread nD τ).loc main_arg2) : IVec S524288 32) k).toNat < 8192)
    (hcol : ∀ k, ((m ((c : Thread nD τ).loc main_arg3) : IVec S524288 32) k).toNat < 16384) :
    (V m c main_v15 : S16384x8192.Idx → EReal)
      = Cert.SpMM.dense (m ((c : Thread nD τ).loc main_arg1)) (m ((c : Thread nD τ).loc main_arg2)) (m ((c : Thread nD τ).loc main_arg3)) := by
  refine (V_dense_term m c).trans ?_
  funext i
  obtain ⟨p, q, rfl⟩ : ∃ (p : Fin 16384) (q : Fin 8192), i = ix2 p q := ⟨i 0, i 1, eq_ix2 i⟩
  exact scatter_at (m ((c : Thread nD τ).loc main_arg1)) (m ((c : Thread nD τ).loc main_arg2))
    (m ((c : Thread nD τ).loc main_arg3)) hrow hcol p q

end Cert.KernelIdeal.HostValue

end
-- ==== Proof.KernelStep.lean ====
/-
  One grid point of the kernel, as arithmetic.  The accumulator block acc [128, 2048] is zeroed at the first point of a
  sweep over the contraction axis; at every point it becomes acc + a · s for the point's blocks a [128, 2048] of x and
  s [2048, 2048] of the dense matrix; at the sweep's last point the output block is the accumulator.  On the
  extended reals the matrix product into a zero accumulator is the plain sum of products over the 2048 contracted
  positions.
-/
import proofs.«414386_j45758581572284_3_alg».proof.Proof.Gen.KernelIdeal.Frame
import Idealize.ShloMosaic.Lib.ValueIdx
import Idealize.ShloMosaic.Lib.Pipeline.Value
import Idealize.ShloMosaic.Lib.Tactic
import Idealize.ShloMosaic.PureOps.Ideal.Laws

noncomputable section

namespace Cert.KernelIdeal.Step

open Idealize.ShloMosaic Idealize.ShloMosaic.TcCoe Idealize.ShloMosaic.Tactic Idealize.ShloMosaic.ValueIdx Idealize.SL.Sem
open Cert.KernelIdeal Cert.KernelIdeal.Gen

variable {F : FTy → Type} [FloatOps F]

theorem hz : (![0, 0] : Fin 2 → Nat) = fun _ => 0 := funext fun a => by fin_cases a <;> rfl

/-- The first point of a sweep leaves in the accumulator the zero block plus the point's product. -/
theorem sout_A (c : Dev nD) (i : grid0.Coords) (arg2 : Memref sig .tc .vmem S128x2048 .bf16) (harg2 : arg2.IsWhole) (arg3 : Memref sig .tc .vmem S2048x2048 .bf16) (harg3 : arg3.IsWhole) (arg4 : Memref sig .tc .vmem S128x2048 .f32) (harg4 : arg4.IsWhole) (arg5 : Memref sig .tc .vmem S128x2048 .f32) (harg5 : arg5.IsWhole) (hc0 : cond0_0 i) (hc1 : ¬cond0_1 i)
    (x0 : Vec F S128x2048 .bf16) (x1 : Vec F S2048x2048 .bf16) :
    sout0_A_0 c i arg2 harg2 arg3 harg3 arg4 harg4 arg5 harg5 hc0 hc1 x0 x1 = k0_pay2 (k0_pay1 (F := F)) x0 x1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S128x2048) hz, View.readCov_unit_zero (S := S128x2048) _ hz]
  simp only [View.readAt_eq_ld, harg2.read_unread, harg3.read_unread, View.ld_unit_zero (S := S128x2048) hz, View.ld_unit_zero (S := S2048x2048) hz]

/-- A middle point leaves in the accumulator what the point before left plus the point's product. -/
theorem sout_B (c : Dev nD) (i : grid0.Coords) (arg2 : Memref sig .tc .vmem S128x2048 .bf16) (harg2 : arg2.IsWhole) (arg3 : Memref sig .tc .vmem S2048x2048 .bf16) (harg3 : arg3.IsWhole) (arg4 : Memref sig .tc .vmem S128x2048 .f32) (harg4 : arg4.IsWhole) (arg5 : Memref sig .tc .vmem S128x2048 .f32) (harg5 : arg5.IsWhole) (hc0 : ¬cond0_0 i) (hc1 : ¬cond0_1 i)
    (x0 : Vec F S128x2048 .bf16) (x1 : Vec F S2048x2048 .bf16) (xs0 : Vec F S128x2048 .f32) :
    sout0_B_0 c i arg2 harg2 arg3 harg3 arg4 harg4 arg5 harg5 hc0 hc1 x0 x1 xs0 = k0_pay2 xs0 x0 x1 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz]
  simp only [View.readAt_eq_ld, harg2.read_unread, harg3.read_unread, harg5.read_unread, View.ld_unit_zero (S := S128x2048) hz, View.ld_unit_zero (S := S2048x2048) hz]

/-- The last point of a sweep leaves the same in the accumulator, -/
theorem sout_C (c : Dev nD) (i : grid0.Coords) (arg2 : Memref sig .tc .vmem S128x2048 .bf16) (harg2 : arg2.IsWhole) (arg3 : Memref sig .tc .vmem S2048x2048 .bf16) (harg3 : arg3.IsWhole) (arg4 : Memref sig .tc .vmem S128x2048 .f32) (harg4 : arg4.IsWhole) (arg5 : Memref sig .tc .vmem S128x2048 .f32) (harg5 : arg5.IsWhole) (hc0 : ¬cond0_0 i) (hc1 : cond0_1 i)
    (x0 : Vec F S128x2048 .bf16) (x1 : Vec F S2048x2048 .bf16) (xs0 : Vec F S128x2048 .f32) :
    sout0_C_0 c i arg2 harg2 arg3 harg3 arg4 harg4 arg5 harg5 hc0 hc1 x0 x1 xs0 = k0_pay2 xs0 x0 x1 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread, View.ld_unit_zero (S := S128x2048) hz, View.ld_unit_zero (S := S2048x2048) hz]

/-- and stores the accumulator into the output block. -/
theorem out_C (c : Dev nD) (i : grid0.Coords) (arg2 : Memref sig .tc .vmem S128x2048 .bf16) (harg2 : arg2.IsWhole) (arg3 : Memref sig .tc .vmem S2048x2048 .bf16) (harg3 : arg3.IsWhole) (arg4 : Memref sig .tc .vmem S128x2048 .f32) (harg4 : arg4.IsWhole) (arg5 : Memref sig .tc .vmem S128x2048 .f32) (harg5 : arg5.IsWhole) (hc0 : ¬cond0_0 i) (hc1 : cond0_1 i)
    (x0 : Vec F S128x2048 .bf16) (x1 : Vec F S2048x2048 .bf16) (xs0 : Vec F S128x2048 .f32) :
    out0_C_2 c i arg2 harg2 arg3 harg3 arg4 harg4 arg5 harg5 hc0 hc1 x0 x1 xs0 = k0_pay2 xs0 x0 x1 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread, View.ld_unit_zero (S := S128x2048) hz, View.ld_unit_zero (S := S2048x2048) hz, View.readCov_unit_zero (S := S128x2048) _ hz]

/-! ## The point's arithmetic at an index, on the extended reals -/

theorem lhs_0 (i : S128x2048.Idx) (q : dot_S128x2048_S2048x2048_S128x2048_1_0_0_1_n_n.contr.Idx) :
    (dot_S128x2048_S2048x2048_S128x2048_1_0_0_1_n_n.lhsIdx i q 0).val = (i 0).val := by
  unfold DotDims.lhsIdx
  rw [dif_neg (show ¬(0 : Fin S128x2048.rank) ∈ dot_S128x2048_S2048x2048_S128x2048_1_0_0_1_n_n.lhsBatch by decide), dif_pos (show (0 : Fin S128x2048.rank) ∈ dot_S128x2048_S2048x2048_S128x2048_1_0_0_1_n_n.lhsNonContracting by decide)]
  rfl
theorem lhs_1 (i : S128x2048.Idx) (q : dot_S128x2048_S2048x2048_S128x2048_1_0_0_1_n_n.contr.Idx) :
    (dot_S128x2048_S2048x2048_S128x2048_1_0_0_1_n_n.lhsIdx i q 1).val = (q ⟨0, by decide⟩).val :=
  dot_S128x2048_S2048x2048_S128x2048_1_0_0_1_n_n.lhsIdx_val_of_single rfl i q
theorem rhs_0 (i : S128x2048.Idx) (q : dot_S128x2048_S2048x2048_S128x2048_1_0_0_1_n_n.contr.Idx) :
    (dot_S128x2048_S2048x2048_S128x2048_1_0_0_1_n_n.rhsIdx i q 0).val = (q ⟨0, by decide⟩).val :=
  dot_S128x2048_S2048x2048_S128x2048_1_0_0_1_n_n.rhsIdx_val_of_single rfl i q
theorem rhs_1 (i : S128x2048.Idx) (q : dot_S128x2048_S2048x2048_S128x2048_1_0_0_1_n_n.contr.Idx) :
    (dot_S128x2048_S2048x2048_S128x2048_1_0_0_1_n_n.rhsIdx i q 1).val = (i 1).val := by
  unfold DotDims.rhsIdx
  rw [dif_neg (show ¬(1 : Fin S2048x2048.rank) ∈ dot_S128x2048_S2048x2048_S128x2048_1_0_0_1_n_n.rhsBatch by decide), dif_pos (show (1 : Fin S2048x2048.rank) ∈ dot_S128x2048_S2048x2048_S128x2048_1_0_0_1_n_n.rhsNonContracting by decide)]
  rfl

/-- The zero block is zero everywhere. -/
theorem pay1_apply (i : S128x2048.Idx) : k0_pay1 (F := Ideal) i = 0 := by
  unfold k0_pay1
  simp only [shapeCast_self]
  show Ideal.ofBits .f32 0x00000000#32 = 0
  exact Ideal.ofBits_zero_f32

/-- One accumulation step at entry (p, q): the accumulator's entry plus the sum over the 2048 contracted positions k of
    a(p, k) · s(k, q). -/
theorem pay2_apply (acc : FVec Ideal S128x2048 .f32) (a : FVec Ideal S128x2048 .bf16) (s : FVec Ideal S2048x2048 .bf16)
    (p : Fin 128) (q : Fin 2048) :
    k0_pay2 (F := Ideal) acc a s (ix2 p q) = acc (ix2 p q) + ∑ k : Fin 2048, a (ix2 p k) * s (ix2 k q) := by
  unfold k0_pay2
  simp only [shapeCast_self]
  show acc (ix2 p q) + FloatOps.matmul dot_S128x2048_S2048x2048_S128x2048_1_0_0_1_n_n none a s (constant S128x2048 .f32 0x00000000#32) (ix2 p q) = _
  refine congrArg (acc (ix2 p q) + ·) ?_
  refine (Ideal.matmul_constant_zero_apply dot_S128x2048_S2048x2048_S128x2048_1_0_0_1_n_n none a s (ix2 p q)).trans ?_
  rw [← Equiv.sum_comp (contrEquiv1 dot_S128x2048_S2048x2048_S128x2048_1_0_0_1_n_n 2048 rfl rfl).symm]
  refine Finset.sum_congr rfl fun k _ => ?_
  have hk := contrEquiv1_symm_val dot_S128x2048_S2048x2048_S128x2048_1_0_0_1_n_n 2048 rfl rfl k
  have el : dot_S128x2048_S2048x2048_S128x2048_1_0_0_1_n_n.lhsIdx (ix2 p q) ((contrEquiv1 dot_S128x2048_S2048x2048_S128x2048_1_0_0_1_n_n 2048 rfl rfl).symm k) = ix2 p k := funext fun b => Fin.ext (by
    match b with
    | ⟨0, _⟩ => exact lhs_0 _ _
    | ⟨1, _⟩ => exact (lhs_1 _ _).trans hk)
  have er : dot_S128x2048_S2048x2048_S128x2048_1_0_0_1_n_n.rhsIdx (ix2 p q) ((contrEquiv1 dot_S128x2048_S2048x2048_S128x2048_1_0_0_1_n_n 2048 rfl rfl).symm k) = ix2 k q := funext fun b => Fin.ext (by
    match b with
    | ⟨0, _⟩ => exact (rhs_0 _ _).trans hk
    | ⟨1, _⟩ => exact rhs_1 _ _)
  rw [el, er]

end Cert.KernelIdeal.Step

end
-- ==== Proof.KernelBlocks.lean ====
/-
  The grid of the kernel's one region and what its points read.  The grid is 4 output column blocks j by 8 contraction
  blocks u; point t = 8 j + u reads block (0, u) of x (columns 2048 u … 2048 u + 2047) and block (u, j) of the dense
  matrix, and writes block (0, j) of the result.  The eight blocks of 2048 columns are all 16384 columns, so a sum over
  the columns is the sum over the blocks of the sums inside each block.
-/
import proofs.«414386_j45758581572284_3_alg».proof.Proof.Gen.KernelIdeal.Value
import proofs.«414386_j45758581572284_3_alg».proof.Proof.KernelStep
import Idealize.ShloMosaic.Lib.ValueIdx
import Idealize.ShloMosaic.Lib.Pipeline.Value
import Mathlib.Algebra.BigOperators.Fin
import Mathlib.Logic.Equiv.Fin.Basic

noncomputable section

open scoped BigOperators

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Step

variable (m : (ℓ : Loc nD τ sig) → Buf (Elt Ideal) ℓ) (ρ : Dev nD → PrngReg)

/-- Column k of contraction block u. -/
def bcol (u : ℕ) (k : Fin 2048) : Fin 16384 := ⟨(u * 2048 + k.val) % 16384, Nat.mod_lt _ (by decide)⟩
/-- Column q of output column block j. -/
def brow (j : ℕ) (q : Fin 2048) : Fin 8192 := ⟨(j * 2048 + q.val) % 8192, Nat.mod_lt _ (by decide)⟩

/-- The two operand arrays as the region finds them, and a point's blocks of them, at their literal types. -/
abbrev xarr (c : Dev nD) : FVec Ideal S128x16384 .bf16 := V m c main_v16
abbrev darr (c : Dev nD) : FVec Ideal S16384x8192 .bf16 := V m c main_v15
abbrev xblk (c : Dev nD) (t : Fin cfg0.N) : FVec Ideal S128x2048 .bf16 := iblk m c 0 t
abbrev sblk (c : Dev nD) (t : Fin cfg0.N) : FVec Ideal S2048x2048 .bf16 := iblk m c 1 t

/-- The index maps over the grid: point t = 8 j + u reads x's block (0, u), the dense matrix's block (u, j) and writes
    the result's block (0, j). -/
theorem idx_facts : ∀ t : Fin cfg0.N,
    win0_0.index t (0 : Fin 2) = 0 ∧ win0_0.index t (1 : Fin 2) = t.val % 8
    ∧ win0_1.index t (0 : Fin 2) = t.val % 8 ∧ win0_1.index t (1 : Fin 2) = t.val / 8
    ∧ win0_2.index t (0 : Fin 2) = 0 ∧ win0_2.index t (1 : Fin 2) = t.val / 8 :=
  (by decide +kernel : ∀ t : Fin grid0.N, _)

/-- x's block at point t, read at (p, k): x at column k of contraction block t mod 8. -/
theorem xblk_apply (c : Dev nD) (t : Fin cfg0.N) (p : Fin 128) (k : Fin 2048) :
    xblk m c t (ix2 p k) = xarr m c (ix2 p (bcol (t.val % 8) k)) := by
  obtain ⟨e0, e1, -⟩ := idx_facts t
  have ht : t.val < 32 := lt_of_lt_of_eq t.isLt N_0
  show ((cfg0.win 0).blk t).view.read (Elt Ideal) (V m c main_v16) (ix2 p k) = V m c main_v16 (ix2 p (bcol (t.val % 8) k))
  rw [View.read_apply]
  refine congrArg (V m c main_v16) ?_
  funext a; apply Fin.ext
  match a with
  | ⟨0, _⟩ => show win0_0.index t (0 : Fin 2) * 128 + 1 * p.val = p.val; omega
  | ⟨1, _⟩ => show win0_0.index t (1 : Fin 2) * 2048 + 1 * k.val = (t.val % 8 * 2048 + k.val) % 16384; have := k.isLt; omega

/-- The dense matrix's block at point t, read at (k, q). -/
theorem sblk_apply (c : Dev nD) (t : Fin cfg0.N) (k : Fin 2048) (q : Fin 2048) :
    sblk m c t (ix2 k q) = darr m c (ix2 (bcol (t.val % 8) k) (brow (t.val / 8) q)) := by
  obtain ⟨-, -, e0, e1, -⟩ := idx_facts t
  have ht : t.val < 32 := lt_of_lt_of_eq t.isLt N_0
  show ((cfg0.win 1).blk t).view.read (Elt Ideal) (V m c main_v15) (ix2 k q) = V m c main_v15 (ix2 (bcol (t.val % 8) k) (brow (t.val / 8) q))
  rw [View.read_apply]
  refine congrArg (V m c main_v15) ?_
  funext a; apply Fin.ext
  match a with
  | ⟨0, _⟩ => show win0_1.index t (0 : Fin 2) * 2048 + 1 * k.val = (t.val % 8 * 2048 + k.val) % 16384; have := k.isLt; omega
  | ⟨1, _⟩ => show win0_1.index t (1 : Fin 2) * 2048 + 1 * q.val = (t.val / 8 * 2048 + q.val) % 8192; have := q.isLt; omega

/-- A sum over the 16384 columns, block by block: eight blocks of 2048. -/
theorem sum_blocks {M : Type*} [AddCommMonoid M] (f : Fin 16384 → M) :
    ∑ cc : Fin 16384, f cc = ∑ u ∈ Finset.range 8, ∑ k : Fin 2048, f (bcol u k) := by
  rw [← Fin.sum_univ_eq_sum_range (fun u => ∑ k : Fin 2048, f (bcol u k)) 8]
  rw [← Equiv.sum_comp ((finProdFinEquiv (m := 8) (n := 2048)).trans (finCongr (by decide : 8 * 2048 = 16384))) f, Fintype.sum_prod_type]
  refine Finset.sum_congr rfl fun u _ => Finset.sum_congr rfl fun k _ => congrArg f (Fin.ext ?_)
  have hu := u.isLt
  have hk := k.isLt
  simp only [Equiv.trans_apply, finProdFinEquiv_apply_val, finCongr_apply, Fin.coe_cast, bcol]
  omega

end Cert.KernelIdeal.KValue

end
-- ==== Proof.KernelValue.lean ====
/-
  The kernel's result array.  After point t = 8 j + u the accumulator holds, at (p, q), the partial product over the
  contraction blocks 0 … u:  Σ_{u' ≤ u} Σ_{k < 2048} x(p, 2048 u' + k) · d(2048 u' + k, 2048 j + q) — by induction over the
  points: zero plus the first block's product at u = 0, the previous partial sum plus this block's product after.  At
  u = 7 the accumulator is written out as block (0, j) of the result, and the eight blocks of 2048 columns are all
  16384 columns: the result at (p, r) is Σ_c x(p, c) · d(c, r).  The four written blocks tile the result.
-/
import proofs.«414386_j45758581572284_3_alg».proof.Proof.KernelBlocks

noncomputable section

open scoped BigOperators

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Step

variable (m : (ℓ : Loc nD τ sig) → Buf (Elt Ideal) ℓ) (ρ : Dev nD → PrngReg)

/-- The partial product over the first n contraction blocks, at row p and column q of output column block j. -/
def part (X : FVec Ideal S128x16384 .bf16) (Dn : FVec Ideal S16384x8192 .bf16) (j n : ℕ) (p : Fin 128) (q : Fin 2048) : EReal :=
  ∑ u ∈ Finset.range n, ∑ k : Fin 2048, X (ix2 p (bcol u k)) * Dn (ix2 (bcol u k) (brow j q))

/-- One point's product of its two blocks, in the arrays' own coordinates. -/
theorem step_sum (c : Dev nD) (t : Fin cfg0.N) (p : Fin 128) (q : Fin 2048) :
    ∑ k : Fin 2048, xblk m c t (ix2 p k) * sblk m c t (ix2 k q)
      = ∑ k : Fin 2048, xarr m c (ix2 p (bcol (t.val % 8) k)) * darr m c (ix2 (bcol (t.val % 8) k) (brow (t.val / 8) q)) :=
  Finset.sum_congr rfl fun k _ => by rw [xblk_apply, sblk_apply]

/-- THE ACCUMULATOR after point n: the partial product over the contraction blocks up to this point's. -/
theorem acc_inv (c : Dev nD) : ∀ (n : ℕ) (hn : n < cfg0.N) (p : Fin 128) (q : Fin 2048),
    (outsAt0 m c n hn).2 (ix2 p q) = part (xarr m c) (darr m c) (n / 8) (n % 8 + 1) p q := by
  intro n
  induction n with
  | zero =>
    intro hn p q
    rw [outsAt0_A m c ⟨0, hn⟩ (Nat.zero_mod 8) (show ¬(0 : ℕ) % 8 = 7 by decide)]
    dsimp only
    rw [sout_A]
    refine (pay2_apply (k0_pay1 (F := Ideal)) (xblk m c ⟨0, hn⟩) (sblk m c ⟨0, hn⟩) p q).trans ?_
    rw [pay1_apply, zero_add, step_sum]
    unfold part
    rw [Finset.sum_range_one]
    rfl
  | succ n ih =>
    intro hn p q
    have hN : n + 1 < 32 := lt_of_lt_of_eq hn (show cfg0.N = 32 from N_0)
    by_cases h0 : (n + 1) % 8 = 0
    · have h1 : ¬(n + 1) % 8 = 7 := by omega
      rw [outsAt0_A m c ⟨n + 1, hn⟩ h0 h1]
      dsimp only
      rw [sout_A]
      refine (pay2_apply (k0_pay1 (F := Ideal)) (xblk m c ⟨n + 1, hn⟩) (sblk m c ⟨n + 1, hn⟩) p q).trans ?_
      rw [pay1_apply, zero_add, step_sum]
      show _ = part (xarr m c) (darr m c) ((n + 1) / 8) ((n + 1) % 8 + 1) p q
      rw [h0]
      unfold part
      rw [Finset.sum_range_one]
    · have e1 : (n + 1) / 8 = n / 8 := by omega
      have e2 : (n + 1) % 8 = n % 8 + 1 := by omega
      have hprev := ih (Nat.lt_of_succ_lt hn) p q
      by_cases h1 : (n + 1) % 8 = 7
      · rw [outsAt0_C m c ⟨n + 1, hn⟩ h0 h1]
        dsimp only
        rw [sout_C]
        refine (pay2_apply ((outsAt0 m c n (Nat.lt_of_succ_lt hn)).2) (xblk m c ⟨n + 1, hn⟩) (sblk m c ⟨n + 1, hn⟩) p q).trans ?_
        rw [hprev, step_sum]
        show _ + ∑ k : Fin 2048, xarr m c (ix2 p (bcol ((n + 1) % 8) k)) * darr m c (ix2 (bcol ((n + 1) % 8) k) (brow ((n + 1) / 8) q)) = _
        rw [e1, e2]
        unfold part
        exact (Finset.sum_range_succ _ _).symm
      · rw [outsAt0_B m c ⟨n + 1, hn⟩ h0 h1]
        dsimp only
        rw [sout_B]
        refine (pay2_apply ((outsAt0 m c n (Nat.lt_of_succ_lt hn)).2) (xblk m c ⟨n + 1, hn⟩) (sblk m c ⟨n + 1, hn⟩) p q).trans ?_
        rw [hprev, step_sum]
        show _ + ∑ k : Fin 2048, xarr m c (ix2 p (bcol ((n + 1) % 8) k)) * darr m c (ix2 (bcol ((n + 1) % 8) k) (brow ((n + 1) / 8) q)) = _
        rw [e1, e2]
        unfold part
        exact (Finset.sum_range_succ _ _).symm

/-- x times the dense matrix, over all 16384 columns. -/
def total (X : FVec Ideal S128x16384 .bf16) (Dn : FVec Ideal S16384x8192 .bf16) : FVec Ideal S128x8192 .f32 :=
  fun i => ∑ cc : Fin 16384, X (ix2 ⟨(i 0).val, idx2_lt0 i⟩ cc) * Dn (ix2 cc ⟨(i 1).val, idx2_lt1 i⟩)

/-- The partial product over all eight contraction blocks is the product over all columns. -/
theorem part_full (X : FVec Ideal S128x16384 .bf16) (Dn : FVec Ideal S16384x8192 .bf16) (j : ℕ) (p : Fin 128) (q : Fin 2048) :
    part X Dn j 8 p q = total X Dn (ix2 p (brow j q)) :=
  (sum_blocks (fun cc => X (ix2 p cc) * Dn (ix2 cc (brow j q)))).symm

/-- The accumulator after the last point of a sweep, entry by entry. -/
theorem last_acc (c : Dev nD) (t : Fin cfg0.N) (h1 : t.val % 8 = 7) (p : Fin 128) (q : Fin 2048) :
    k0_pay2 (F := Ideal) (outsAt0 m c (t.val - 1) (Nat.lt_of_le_of_lt (Nat.sub_le _ _) t.isLt)).2 (xblk m c t) (sblk m c t) (ix2 p q)
      = total (xarr m c) (darr m c) (ix2 p (brow (t.val / 8) q)) := by
  have hN : t.val < 32 := lt_of_lt_of_eq t.isLt (show cfg0.N = 32 from N_0)
  have e := acc_inv m c t.val t.isLt p q
  rw [outsAt0_C m c t (by omega) h1] at e
  dsimp only at e
  rw [sout_C] at e
  rw [← part_full]
  rw [h1] at e
  exact e

set_option maxRecDepth 65536 in
/-- WHAT A WRITING POINT WRITES BACK is its block of x times the dense matrix. -/
theorem flushed_eq (c : Dev nD) (t : Fin cfg0.N) (hf : (cfg0.win 2).flush t = true) :
    (dats m 0 c).flushed 2 t = ((cfg0.win 2).blk t).view.read (Elt Ideal) (total (xarr m c) (darr m c)) := by
  have h1 : t.val % 8 = 7 := (flush0_2 t).mp hf
  have h0 : ¬t.val % 8 = 0 := by omega
  have hN : t.val < 32 := lt_of_lt_of_eq t.isLt (show cfg0.N = 32 from N_0)
  obtain ⟨-, -, -, -, e0, e1⟩ := idx_facts t
  rw [Value.flushed2_C m c t h0 h1, out_C]
  funext j
  rw [View.read_apply]
  have hj0 : (j 0).val < 128 := (j 0).isLt
  have hj1 : (j 1).val < 2048 := (j 1).isLt
  have hj : (cfg0.win 2).xinj (grid0.coords t) j = ix2 (⟨(j 0).val, hj0⟩ : Fin 128) (⟨(j 1).val, hj1⟩ : Fin 2048) := funext fun a => by
    match a with
    | ⟨0, _⟩ => rfl
    | ⟨1, _⟩ => rfl
  have hemb : ((cfg0.win 2).blk t).view.emb j = ix2 (⟨(j 0).val, hj0⟩ : Fin 128) (brow (t.val / 8) ⟨(j 1).val, hj1⟩) := funext fun a => Fin.ext (by
    match a with
    | ⟨0, _⟩ => show win0_2.index t (0 : Fin 2) * 128 + 1 * (j 0).val = (j 0).val; omega
    | ⟨1, _⟩ => show win0_2.index t (1 : Fin 2) * 2048 + 1 * (j 1).val = (t.val / 8 * 2048 + (j 1).val) % 8192; omega)
  show k0_pay2 (F := Ideal) _ (iblk m c 0 t) (iblk m c 1 t) ((cfg0.win 2).xinj (grid0.coords t) j) = _
  rw [hj, hemb]
  have key := last_acc m c t h1 ⟨(j 0).val, hj0⟩ ⟨(j 1).val, hj1⟩
  exact key

/-- Every entry of the result is in the block some writing point writes: column block j is written at point 8 j + 7. -/
theorem cover (i : S128x8192.Idx) : ∃ t : Fin cfg0.N, (cfg0.win 2).flush t = true ∧ i ∈ ((cfg0.win 2).blk t).view.set := by
  have hi0 : (i 0).val < 128 := (i 0).isLt
  have hi1 : (i 1).val < 8192 := (i 1).isLt
  have hlt : 8 * ((i 1).val / 2048) + 7 < cfg0.N := by rw [show cfg0.N = 32 from N_0]; omega
  refine ⟨⟨8 * ((i 1).val / 2048) + 7, hlt⟩, (flush0_2 _).mpr (by show (8 * ((i 1).val / 2048) + 7) % 8 = 7; omega), ?_⟩
  obtain ⟨-, -, -, -, e0, e1⟩ := idx_facts ⟨8 * ((i 1).val / 2048) + 7, hlt⟩
  show i ∈ ((View.whole main_v17).slice (win0_2.rect ⟨8 * ((i 1).val / 2048) + 7, hlt⟩)).set
  rw [View.set_slice_whole, Rect.mem_set_unit]
  intro a
  match a with
  | ⟨0, _⟩ =>
    show win0_2.index ⟨8 * ((i 1).val / 2048) + 7, hlt⟩ (0 : Fin 2) * 128 ≤ (i 0).val ∧ (i 0).val < win0_2.index ⟨8 * ((i 1).val / 2048) + 7, hlt⟩ (0 : Fin 2) * 128 + 128
    rw [e0]; omega
  | ⟨1, _⟩ =>
    show win0_2.index ⟨8 * ((i 1).val / 2048) + 7, hlt⟩ (1 : Fin 2) * 2048 ≤ (i 1).val ∧ (i 1).val < win0_2.index ⟨8 * ((i 1).val / 2048) + 7, hlt⟩ (1 : Fin 2) * 2048 + 2048
    rw [e1]; show (8 * ((i 1).val / 2048) + 7) / 8 * 2048 ≤ (i 1).val ∧ (i 1).val < (8 * ((i 1).val / 2048) + 7) / 8 * 2048 + 2048; omega

/-- THE RESULT ARRAY after the run: x times the dense matrix. -/
theorem final (c : Dev nD) : (dats m 0 c).arrAt 2 cfg0.N = total (xarr m c) (darr m c) :=
  (dats m 0 c).arrAt_eq_of_cover 2 (total (xarr m c) (darr m c)) (flushed_eq m c) cover

/-- The kernel's run: every weakly fair execution ends with the result at x times the dense matrix (as the region
    finds the two operand arrays) and the arguments unchanged. -/
theorem run : θ_run defs (onTc (τ := τ) (main (F := Ideal))) ⟨m, fun _ => 0, ρ⟩ fun r => ∀ c : Dev nD,
      r.2.mem ((c : Thread nD τ).loc main_v17) = total (xarr m c) (darr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.KValue

end
-- ==== Proof.lean ====
/-
  The certificate of a sparse-times-dense product computed two ways.

  A sparse matrix is given as 524288 triplets (value, row, column).  The reference gathers, for every triplet, the
  column of x [128, 16384] the triplet names, scales it by the triplet's value and adds it into the result's column the
  triplet's row names: y(b, r) = Σ_{k : row k = r} x(b, col k) · v k.  The kernel first densifies the triplets into a
  [16384, 8192] matrix d(c, r) = Σ_{k : col k = c, row k = r} v k by one accumulating scatter, and then multiplies:
  y(b, r) = Σ_c x(b, c) · d(c, r), the contraction cut into eight blocks of 2048 accumulated over a grid axis.

  On the extended reals the two agree when the entries of x and v are real numbers (the precondition's finiteness:
  moving x(b, c) inside the inner sum is distributivity, which fails at the infinities) and the row and column words
  are indices of the axes they index (the precondition's range conjuncts: outside them the two programs treat a word
  differently — the kernel's scatter drops an out-of-range column where the reference's gather clamps it, and wraps a
  negative row where the reference's scatter drops it).  Under those facts both results are the one function
  `Cert.SpMM.G` of the arguments: the kernel's through `Cert.SpMM.viaDense` and the law `viaDense_eq_G`.

  The three frames: the two kernels' are the generated frame runs; the reference's is its generated run with the
  result dropped.  The idealization rewrote nothing, so `preserves` is trivial.
-/
import proofs.«414386_j45758581572284_3_alg».proof.Defs
import proofs.«414386_j45758581572284_3_alg».proof.Proof.Gen.Kernel
import proofs.«414386_j45758581572284_3_alg».proof.Proof.Gen.Kernel.Skeleton
import proofs.«414386_j45758581572284_3_alg».proof.Proof.Gen.Kernel.Launch
import proofs.«414386_j45758581572284_3_alg».proof.Proof.Gen.Kernel.Points
import proofs.«414386_j45758581572284_3_alg».proof.Proof.Gen.Kernel.Frame
import proofs.«414386_j45758581572284_3_alg».proof.Proof.Gen.KernelIdeal
import proofs.«414386_j45758581572284_3_alg».proof.Proof.Gen.KernelIdeal.Skeleton
import proofs.«414386_j45758581572284_3_alg».proof.Proof.Gen.KernelIdeal.Launch
import proofs.«414386_j45758581572284_3_alg».proof.Proof.Gen.KernelIdeal.Points
import proofs.«414386_j45758581572284_3_alg».proof.Proof.Gen.KernelIdeal.Frame
import proofs.«414386_j45758581572284_3_alg».proof.Proof.Gen.ReferenceIdeal
import proofs.«414386_j45758581572284_3_alg».proof.Proof.Gen.Pre_finite_inputs
import proofs.«414386_j45758581572284_3_alg».proof.Proof.Gen.KernelIdeal.Value
import proofs.«414386_j45758581572284_3_alg».proof.Proof.Gen.ReferenceIdeal.Run
import proofs.«414386_j45758581572284_3_alg».proof.Proof.Gen.ReferenceIdeal.Read
import proofs.«414386_j45758581572284_3_alg».proof.Proof.Spec
import proofs.«414386_j45758581572284_3_alg».proof.Proof.Pre
import proofs.«414386_j45758581572284_3_alg».proof.Proof.RefValue
import proofs.«414386_j45758581572284_3_alg».proof.Proof.KernelHost
import proofs.«414386_j45758581572284_3_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- x times the dense matrix, with the dense matrix spelt as the densified triplets, is `viaDense`: the same sums. -/
theorem total_dense (x : FVec Ideal Cert.KernelIdeal.S128x16384 .bf16) (v : FVec Ideal Cert.KernelIdeal.S524288 .f32)
    (row col : IVec Cert.KernelIdeal.S524288 32) :
    Cert.KernelIdeal.KValue.total x (Cert.SpMM.dense v row col) = Cert.SpMM.viaDense x v row col := rfl

/-- Both programs end with the sparse product of the arguments: the kernel's run through the dense matrix and the
    law, the reference's run read index by index. -/
theorem algebraic : Cert.algebraic_KernelIdeal_ReferenceIdeal := by
  intro m ρ m' ρ' hpre hagree
  have hP := fun c => Cert.SpMM.Pre.of_pre _ _ _ _ (hpre c)
  refine ⟨fun c => Cert.SpMM.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩) (Cert.KernelIdeal.KValue.run m ρ)
    obtain ⟨hx, hv, hrow, hcol⟩ := hP c
    rw [show Cert.KernelIdeal.KValue.xarr m c = _ from Cert.KernelIdeal.HostValue.V_x m c,
      show Cert.KernelIdeal.KValue.darr m c = _ from Cert.KernelIdeal.HostValue.V_dense m c hrow hcol, total_dense]
    exact Cert.SpMM.viaDense_eq_G _ _ _ _ hx hv hcol
  · refine (θ_run Cert.ReferenceIdeal.defs _ _).mono (fun _ h c => ⟨(h c).1.trans ?_, (h c).2⟩)
      (Cert.ReferenceIdeal.Value.run (F := Ideal) m' ρ')
    obtain ⟨hx, hv, hrow, hcol⟩ := hP c
    rw [Cert.ReferenceIdeal.Read.val_main_v14_eq, (hagree c).1, (hagree c).2.1, (hagree c).2.2.1, (hagree c).2.2.2]
    exact Cert.ReferenceIdeal.RefValue.ref_eq_G _ _ _ _ hrow hcol

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
